-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x2560000 : Shape := ⟨2, ![2, 2560000]⟩
abbrev S2x32 : Shape := ⟨2, ![2, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x2 .f32) (main_arg1 : IVec S2x2560000 32) (main_arg2 : FVec F S2x32 .f32) (main_arg3 : FVec F S32 .f32) (main_arg4 : FVec F S32x1 .f32) (main_arg5 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x2 : Shape := ⟨2, ![100000, 2]⟩
abbrev S2x2560000 : Shape := ⟨2, ![2, 2560000]⟩
abbrev S2x32 : Shape := ⟨2, ![2, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x2560000 : Shape := ⟨2, ![1, 2560000]⟩
abbrev S2560000 : Shape := ⟨1, ![2560000]⟩
abbrev S2660000 : Shape := ⟨1, ![2660000]⟩
abbrev S_ : Shape := ⟨0, ![]⟩
abbrev S2660000x1 : Shape := ⟨2, ![2660000, 1]⟩
abbrev S100000x32 : Shape := ⟨2, ![100000, 32]⟩
abbrev S10000x2 : Shape := ⟨2, ![10000, 2]⟩
abbrev S10000x32 : Shape := ⟨2, ![10000, 32]⟩
abbrev S2660000x32 : Shape := ⟨2, ![2660000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x2, .f32⟩
  | .hbm, ⟨1, _⟩ => ⟨S2x2560000, .i32⟩
  | .hbm, ⟨2, _⟩ => ⟨S2x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000, .i32⟩
  | .hbm, ⟨7, _⟩ => ⟨S1x2560000, .i32⟩
  | .hbm, ⟨8, _⟩ => ⟨S2560000, .i32⟩
  | .hbm, ⟨9, _⟩ => ⟨S2660000, .i32⟩
  | .hbm, ⟨10, _⟩ => ⟨S1x2560000, .i32⟩
  | .hbm, ⟨11, _⟩ => ⟨S2560000, .i32⟩
  | .hbm, ⟨12, _⟩ => ⟨S2660000, .i32⟩
  | .hbm, ⟨13, _⟩ => ⟨S_, .f32⟩
  | .hbm, ⟨14, _⟩ => ⟨S2660000, .f32⟩
  | .hbm, ⟨15, _⟩ => ⟨S_, .f32⟩
  | .hbm, ⟨16, _⟩ => ⟨S100000, .f32⟩
  | .hbm, ⟨17, _⟩ => ⟨S2660000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S2660000, .i32⟩
  | .hbm, ⟨29, _⟩ => ⟨S2660000, .i1⟩
  | .hbm, ⟨30, _⟩ => ⟨S_, .i32⟩
  | .hbm, ⟨31, _⟩ => ⟨S2660000, .i32⟩
  | .hbm, ⟨32, _⟩ => ⟨S2660000, .i32⟩
  | .hbm, ⟨33, _⟩ => ⟨S2660000, .i32⟩
  | .hbm, ⟨34, _⟩ => ⟨S2660000x1, .i32⟩
  | .hbm, ⟨35, _⟩ => ⟨S2660000, .f32⟩
  | .hbm, ⟨36, _⟩ => ⟨S_, .i32⟩
  | .hbm, ⟨37, _⟩ => ⟨S2660000, .i32⟩
  | .hbm, ⟨38, _⟩ => ⟨S2660000, .i1⟩
  | .hbm, ⟨39, _⟩ => ⟨S_, .i32⟩
  | .hbm, ⟨40, _⟩ => ⟨S2660000, .i32⟩
  | .hbm, ⟨41, _⟩ => ⟨S2660000, .i32⟩
  | .hbm, ⟨42, _⟩ => ⟨S2660000, .i32⟩
  | .hbm, ⟨43, _⟩ => ⟨S2660000x1, .i32⟩
  | .hbm, ⟨44, _⟩ => ⟨S2660000, .f32⟩
  | .hbm, ⟨45, _⟩ => ⟨S2660000, .f32⟩
  | .hbm, ⟨46, _⟩ => ⟨S100000x32, .f32⟩
  | .hbm, ⟨47, _⟩ => ⟨S2660000x1, .f32⟩
  | .hbm, ⟨48, _⟩ => ⟨S_, .i32⟩
  | .hbm, ⟨49, _⟩ => ⟨S2660000, .i32⟩
  | .hbm, ⟨50, _⟩ => ⟨S2660000, .i1⟩
  | .hbm, ⟨51, _⟩ => ⟨S_, .i32⟩
  | .hbm, ⟨52, _⟩ => ⟨S2660000, .i32⟩
  | .hbm, ⟨53, _⟩ => ⟨S2660000, .i32⟩
  | .hbm, ⟨54, _⟩ => ⟨S2660000, .i32⟩
  | .hbm, ⟨55, _⟩ => ⟨S2660000x1, .i32⟩
  | .hbm, ⟨56, _⟩ => ⟨S2660000x32, .f32⟩
  | .hbm, ⟨57, _⟩ => ⟨S2660000x32, .f32⟩
  | .hbm, ⟨58, _⟩ => ⟨S2660000x32, .f32⟩
  | .hbm, ⟨59, _⟩ => ⟨S_, .f32⟩
  | .hbm, ⟨60, _⟩ => ⟨S100000x32, .f32⟩
  | .hbm, ⟨61, _⟩ => ⟨S2660000x1, .i32⟩
  | .hbm, ⟨62, _⟩ => ⟨S100000x32, .f32⟩
  | .hbm, ⟨63, _⟩ => ⟨S1x32, .f32⟩
  | .hbm, ⟨64, _⟩ => ⟨S100000x1, .f32⟩
  | .hbm, ⟨65, _⟩ => ⟨S2660000x1, .f32⟩
  | .hbm, ⟨66, _⟩ => ⟨S_, .i32⟩
  | .hbm, ⟨67, _⟩ => ⟨S2660000, .i32⟩
  | .hbm, ⟨68, _⟩ => ⟨S2660000, .i1⟩
  | .hbm, ⟨69, _⟩ => ⟨S_, .i32⟩
  | .hbm, ⟨70, _⟩ => ⟨S2660000, .i32⟩
  | .hbm, ⟨71, _⟩ => ⟨S2660000, .i32⟩
  | .hbm, ⟨72, _⟩ => ⟨S2660000, .i32⟩
  | .hbm, ⟨73, _⟩ => ⟨S2660000x1, .i32⟩
  | .hbm, ⟨74, _⟩ => ⟨S2660000x1, .f32⟩
  | .hbm, ⟨75, _⟩ => ⟨S2660000x1, .f32⟩
  | .hbm, ⟨76, _⟩ => ⟨S_, .f32⟩
  | .hbm, ⟨77, _⟩ => ⟨S100000x1, .f32⟩
  | .hbm, ⟨78, _⟩ => ⟨S2660000x1, .i32⟩
  | .hbm, ⟨79, _⟩ => ⟨S100000x1, .f32⟩
  | .hbm, ⟨80, _⟩ => ⟨S1x1, .f32⟩
  | .hbm, ⟨81, _⟩ => ⟨S100000x1, .f32⟩
  | .local _ .vmem, ⟨0, _⟩ => ⟨S10000x2, .f32⟩
  | .local _ .vmem, ⟨1, _⟩ => ⟨S10000x2, .f32⟩
  | .local _ .vmem, ⟨2, _⟩ => ⟨S2x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x1, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x2560000_S1x2560000_0_0 : S2x2560000.Slices ![0, 0] S1x2560000
  shapeCasts_S1x2560000_S2560000 : S1x2560000.ShapeCasts S2560000
  concatenates_S2560000_S100000_S2660000_d0 : Shape.Concatenates [S2560000, S100000] S2660000 0
  slices_S2x2560000_S1x2560000_1_0 : S2x2560000.Slices ![1, 0] S1x2560000
  bcast_S_S2660000 : S_.BroadcastsInDim S2660000 (![] : Fin 0 → Fin S2660000.rank)
  bcast_S_S100000 : S_.BroadcastsInDim S100000 (![] : Fin 0 → Fin S100000.rank)
  bcast_S2660000_S2660000x1_0 : S2660000.BroadcastsInDim S2660000x1 (![0] : Fin 1 → Fin S2660000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S10000x32_S10000x32_0_0 : ∀ a, (![0, 0] : Fin 2 → Nat) a + S10000x32.size a ≤ S10000x32.size a
  h_S10000x32 : 0 < S10000x32.numel
  bcast_S2660000x1_S2660000x32_0_1 : S2660000x1.BroadcastsInDim S2660000x32 (![0, 1] : Fin 2 → Fin S2660000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S2660000x1_S2660000_n_0_0_1_wf : ScatterDims.WF S100000 S2660000x1 S2660000 [] [0] [0] 1
  gather_S100000_S2660000x1_S2660000_n_0_n_n_0_1_1_wf : GatherDims.WF S100000 S2660000x1 S2660000 [] [0] [] [0] [] 1 ![1]
  dot_S10000x2_S2x32_S10000x32_1_0_0_1_n_n_wf : DotDims.WF S10000x2 S2x32 S10000x32 [1] [0] [0] [1] [] []
  gather_S100000x32_S2660000x1_S2660000x32_1_0_n_n_0_1_132_wf : GatherDims.WF S100000x32 S2660000x1 S2660000x32 [1] [0] [] [0] [] 1 ![1, 32]
  scatter_S100000x32_S2660000x1_S2660000x32_1_0_0_1_wf : ScatterDims.WF S100000x32 S2660000x1 S2660000x32 [1] [0] [0] 1
  dot_S10000x32_S32x1_S10000x1_1_0_0_1_n_n_wf : DotDims.WF S10000x32 S32x1 S10000x1 [1] [0] [0] [1] [] []
  gather_S100000x1_S2660000x1_S2660000x1_1_0_n_n_0_1_11_wf : GatherDims.WF S100000x1 S2660000x1 S2660000x1 [1] [0] [] [0] [] 1 ![1, 1]
  scatter_S100000x1_S2660000x1_S2660000x1_1_0_0_1_wf : ScatterDims.WF S100000x1 S2660000x1 S2660000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S2660000x1_S2660000_n_0_0_1 : ScatterDims S100000 S2660000x1 S2660000 where
  updateWindowDims := []
  insertedWindowDims := [0]
  scatterDimsToOperandDims := [0]
  indexVectorDim := 1
  wf := scatter_S100000_S2660000x1_S2660000_n_0_0_1_wf
def gather_S100000_S2660000x1_S2660000_n_0_n_n_0_1_1 : GatherDims S100000 S2660000x1 S2660000 where
  offsetDims := []
  collapsedSliceDims := [0]
  operandBatchingDims := []
  startIndicesBatchingDims := []
  startIndexMap := [0]
  indexVectorDim := 1
  sliceSizes := ![1]
  wf := gather_S100000_S2660000x1_S2660000_n_0_n_n_0_1_1_wf
def dot_S10000x2_S2x32_S10000x32_1_0_0_1_n_n : DotDims S10000x2 S2x32 S10000x32 where
  lhsContracting := [1]
  rhsContracting := [0]
  lhsNonContracting := [0]
  rhsNonContracting := [1]
  lhsBatch := []
  rhsBatch := []
  wf := dot_S10000x2_S2x32_S10000x32_1_0_0_1_n_n_wf
def gather_S100000x32_S2660000x1_S2660000x32_1_0_n_n_0_1_132 : GatherDims S100000x32 S2660000x1 S2660000x32 where
  offsetDims := [1]
  collapsedSliceDims := [0]
  operandBatchingDims := []
  startIndicesBatchingDims := []
  startIndexMap := [0]
  indexVectorDim := 1
  sliceSizes := ![1, 32]
  wf := gather_S100000x32_S2660000x1_S2660000x32_1_0_n_n_0_1_132_wf
def scatter_S100000x32_S2660000x1_S2660000x32_1_0_0_1 : ScatterDims S100000x32 S2660000x1 S2660000x32 where
  updateWindowDims := [1]
  insertedWindowDims := [0]
  scatterDimsToOperandDims := [0]
  indexVectorDim := 1
  wf := scatter_S100000x32_S2660000x1_S2660000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S2660000x1_S2660000x1_1_0_n_n_0_1_11 : GatherDims S100000x1 S2660000x1 S2660000x1 where
  offsetDims := [1]
  collapsedSliceDims := [0]
  operandBatchingDims := []
  startIndicesBatchingDims := []
  startIndexMap := [0]
  indexVectorDim := 1
  sliceSizes := ![1, 1]
  wf := gather_S100000x1_S2660000x1_S2660000x1_1_0_n_n_0_1_11_wf
def scatter_S100000x1_S2660000x1_S2660000x1_1_0_0_1 : ScatterDims S100000x1 S2660000x1 S2660000x1 where
  updateWindowDims := [1]
  insertedWindowDims := [0]
  scatterDimsToOperandDims := [0]
  indexVectorDim := 1
  wf := scatter_S100000x1_S2660000x1_S2660000x1_1_0_0_1_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x2 : Shape := ⟨2, ![100000, 2]⟩
abbrev S2x2560000 : Shape := ⟨2, ![2, 2560000]⟩
abbrev S2x32 : Shape := ⟨2, ![2, 32]⟩
abbrev S32 : Shape := ⟨1, ![32]⟩
abbrev S32x1 : Shape := ⟨2, ![32, 1]⟩
abbrev S1 : Shape := ⟨1, ![1]⟩
abbrev S100000x32 : Shape := ⟨2, ![100000, 32]⟩
abbrev S100000 : Shape := ⟨1, ![100000]⟩
abbrev S1x2560000 : Shape := ⟨2, ![1, 2560000]⟩
abbrev S2560000 : Shape := ⟨1, ![2560000]⟩
abbrev S2660000 : Shape := ⟨1, ![2660000]⟩
abbrev S_ : Shape := ⟨0, ![]⟩
abbrev S2660000x1 : Shape := ⟨2, ![2660000, 1]⟩
abbrev S2660000x32 : Shape := ⟨2, ![2660000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x2560000, .i32⟩
  | .hbm, ⟨2, _⟩ => ⟨S2x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000x32, .f32⟩
  | .hbm, ⟨7, _⟩ => ⟨S100000, .i32⟩
  | .hbm, ⟨8, _⟩ => ⟨S1x2560000, .i32⟩
  | .hbm, ⟨9, _⟩ => ⟨S2560000, .i32⟩
  | .hbm, ⟨10, _⟩ => ⟨S2660000, .i32⟩
  | .hbm, ⟨11, _⟩ => ⟨S1x2560000, .i32⟩
  | .hbm, ⟨12, _⟩ => ⟨S2560000, .i32⟩
  | .hbm, ⟨13, _⟩ => ⟨S2660000, .i32⟩
  | .hbm, ⟨14, _⟩ => ⟨S_, .f32⟩
  | .hbm, ⟨15, _⟩ => ⟨S2660000, .f32⟩
  | .hbm, ⟨16, _⟩ => ⟨S_, .f32⟩
  | .hbm, ⟨17, _⟩ => ⟨S100000, .f32⟩
  | .hbm, ⟨18, _⟩ => ⟨S2660000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S2660000, .i32⟩
  | .hbm, ⟨30, _⟩ => ⟨S2660000, .i1⟩
  | .hbm, ⟨31, _⟩ => ⟨S_, .i32⟩
  | .hbm, ⟨32, _⟩ => ⟨S2660000, .i32⟩
  | .hbm, ⟨33, _⟩ => ⟨S2660000, .i32⟩
  | .hbm, ⟨34, _⟩ => ⟨S2660000, .i32⟩
  | .hbm, ⟨35, _⟩ => ⟨S2660000x1, .i32⟩
  | .hbm, ⟨36, _⟩ => ⟨S2660000, .f32⟩
  | .hbm, ⟨37, _⟩ => ⟨S_, .i32⟩
  | .hbm, ⟨38, _⟩ => ⟨S2660000, .i32⟩
  | .hbm, ⟨39, _⟩ => ⟨S2660000, .i1⟩
  | .hbm, ⟨40, _⟩ => ⟨S_, .i32⟩
  | .hbm, ⟨41, _⟩ => ⟨S2660000, .i32⟩
  | .hbm, ⟨42, _⟩ => ⟨S2660000, .i32⟩
  | .hbm, ⟨43, _⟩ => ⟨S2660000, .i32⟩
  | .hbm, ⟨44, _⟩ => ⟨S2660000x1, .i32⟩
  | .hbm, ⟨45, _⟩ => ⟨S2660000, .f32⟩
  | .hbm, ⟨46, _⟩ => ⟨S2660000, .f32⟩
  | .hbm, ⟨47, _⟩ => ⟨S2660000x1, .f32⟩
  | .hbm, ⟨48, _⟩ => ⟨S_, .i32⟩
  | .hbm, ⟨49, _⟩ => ⟨S2660000, .i32⟩
  | .hbm, ⟨50, _⟩ => ⟨S2660000, .i1⟩
  | .hbm, ⟨51, _⟩ => ⟨S_, .i32⟩
  | .hbm, ⟨52, _⟩ => ⟨S2660000, .i32⟩
  | .hbm, ⟨53, _⟩ => ⟨S2660000, .i32⟩
  | .hbm, ⟨54, _⟩ => ⟨S2660000, .i32⟩
  | .hbm, ⟨55, _⟩ => ⟨S2660000x1, .i32⟩
  | .hbm, ⟨56, _⟩ => ⟨S2660000x32, .f32⟩
  | .hbm, ⟨57, _⟩ => ⟨S2660000x32, .f32⟩
  | .hbm, ⟨58, _⟩ => ⟨S2660000x32, .f32⟩
  | .hbm, ⟨59, _⟩ => ⟨S_, .f32⟩
  | .hbm, ⟨60, _⟩ => ⟨S100000x32, .f32⟩
  | .hbm, ⟨61, _⟩ => ⟨S2660000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x1, .f32⟩
  | .hbm, ⟨70, _⟩ => ⟨S100000, .i32⟩
  | .hbm, ⟨71, _⟩ => ⟨S1x2560000, .i32⟩
  | .hbm, ⟨72, _⟩ => ⟨S2560000, .i32⟩
  | .hbm, ⟨73, _⟩ => ⟨S2660000, .i32⟩
  | .hbm, ⟨74, _⟩ => ⟨S1x2560000, .i32⟩
  | .hbm, ⟨75, _⟩ => ⟨S2560000, .i32⟩
  | .hbm, ⟨76, _⟩ => ⟨S2660000, .i32⟩
  | .hbm, ⟨77, _⟩ => ⟨S_, .f32⟩
  | .hbm, ⟨78, _⟩ => ⟨S2660000, .f32⟩
  | .hbm, ⟨79, _⟩ => ⟨S_, .f32⟩
  | .hbm, ⟨80, _⟩ => ⟨S100000, .f32⟩
  | .hbm, ⟨81, _⟩ => ⟨S2660000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .i1⟩
  | .hbm, ⟨86, _⟩ => ⟨S100000, .f32⟩
  | .hbm, ⟨87, _⟩ => ⟨S_, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S_, .i32⟩
  | .hbm, ⟨92, _⟩ => ⟨S2660000, .i32⟩
  | .hbm, ⟨93, _⟩ => ⟨S2660000, .i1⟩
  | .hbm, ⟨94, _⟩ => ⟨S_, .i32⟩
  | .hbm, ⟨95, _⟩ => ⟨S2660000, .i32⟩
  | .hbm, ⟨96, _⟩ => ⟨S2660000, .i32⟩
  | .hbm, ⟨97, _⟩ => ⟨S2660000, .i32⟩
  | .hbm, ⟨98, _⟩ => ⟨S2660000x1, .i32⟩
  | .hbm, ⟨99, _⟩ => ⟨S2660000, .f32⟩
  | .hbm, ⟨100, _⟩ => ⟨S_, .i32⟩
  | .hbm, ⟨101, _⟩ => ⟨S2660000, .i32⟩
  | .hbm, ⟨102, _⟩ => ⟨S2660000, .i1⟩
  | .hbm, ⟨103, _⟩ => ⟨S_, .i32⟩
  | .hbm, ⟨104, _⟩ => ⟨S2660000, .i32⟩
  | .hbm, ⟨105, _⟩ => ⟨S2660000, .i32⟩
  | .hbm, ⟨106, _⟩ => ⟨S2660000, .i32⟩
  | .hbm, ⟨107, _⟩ => ⟨S2660000x1, .i32⟩
  | .hbm, ⟨108, _⟩ => ⟨S2660000, .f32⟩
  | .hbm, ⟨109, _⟩ => ⟨S2660000, .f32⟩
  | .hbm, ⟨110, _⟩ => ⟨S2660000x1, .f32⟩
  | .hbm, ⟨111, _⟩ => ⟨S_, .i32⟩
  | .hbm, ⟨112, _⟩ => ⟨S2660000, .i32⟩
  | .hbm, ⟨113, _⟩ => ⟨S2660000, .i1⟩
  | .hbm, ⟨114, _⟩ => ⟨S_, .i32⟩
  | .hbm, ⟨115, _⟩ => ⟨S2660000, .i32⟩
  | .hbm, ⟨116, _⟩ => ⟨S2660000, .i32⟩
  | .hbm, ⟨117, _⟩ => ⟨S2660000, .i32⟩
  | .hbm, ⟨118, _⟩ => ⟨S2660000x1, .i32⟩
  | .hbm, ⟨119, _⟩ => ⟨S2660000x1, .f32⟩
  | .hbm, ⟨120, _⟩ => ⟨S2660000x1, .f32⟩
  | .hbm, ⟨121, _⟩ => ⟨S_, .f32⟩
  | .hbm, ⟨122, _⟩ => ⟨S100000x1, .f32⟩
  | .hbm, ⟨123, _⟩ => ⟨S2660000x1, .i32⟩
  | .hbm, ⟨124, _⟩ => ⟨S100000x1, .f32⟩
  | .hbm, ⟨125, _⟩ => ⟨S1x1, .f32⟩
  | .hbm, ⟨126, _⟩ => ⟨S100000x1, .f32⟩
  | .hbm, ⟨127, _⟩ => ⟨S100000x1, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]

class Facts₀ : Prop where
  slices_S2x2560000_S1x2560000_0_0 : S2x2560000.Slices ![0, 0] S1x2560000
  shapeCasts_S1x2560000_S2560000 : S1x2560000.ShapeCasts S2560000
  concatenates_S2560000_S100000_S2660000_d0 : Shape.Concatenates [S2560000, S100000] S2660000 0
  slices_S2x2560000_S1x2560000_1_0 : S2x2560000.Slices ![1, 0] S1x2560000
  bcast_S_S2660000 : S_.BroadcastsInDim S2660000 (![] : Fin 0 → Fin S2660000.rank)
  bcast_S_S100000 : S_.BroadcastsInDim S100000 (![] : Fin 0 → Fin S100000.rank)
  bcast_S2660000_S2660000x1_0 : S2660000.BroadcastsInDim S2660000x1 (![0] : Fin 1 → Fin S2660000x1.rank)
  bcast_S2660000x1_S2660000x32_0_1 : S2660000x1.BroadcastsInDim S2660000x32 (![0, 1] : Fin 2 → Fin S2660000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x2_S2x32_S100000x32_1_0_0_1_n_n_wf : DotDims.WF S100000x2 S2x32 S100000x32 [1] [0] [0] [1] [] []
  scatter_S100000_S2660000x1_S2660000_n_0_0_1_wf : ScatterDims.WF S100000 S2660000x1 S2660000 [] [0] [0] 1
  gather_S100000_S2660000x1_S2660000_n_0_n_n_0_1_1_wf : GatherDims.WF S100000 S2660000x1 S2660000 [] [0] [] [0] [] 1 ![1]
  gather_S100000x32_S2660000x1_S2660000x32_1_0_n_n_0_1_132_wf : GatherDims.WF S100000x32 S2660000x1 S2660000x32 [1] [0] [] [0] [] 1 ![1, 32]
  scatter_S100000x32_S2660000x1_S2660000x32_1_0_0_1_wf : ScatterDims.WF S100000x32 S2660000x1 S2660000x32 [1] [0] [0] 1
  dot_S100000x32_S32x1_S100000x1_1_0_0_1_n_n_wf : DotDims.WF S100000x32 S32x1 S100000x1 [1] [0] [0] [1] [] []
  gather_S100000x1_S2660000x1_S2660000x1_1_0_n_n_0_1_11_wf : GatherDims.WF S100000x1 S2660000x1 S2660000x1 [1] [0] [] [0] [] 1 ![1, 1]
  scatter_S100000x1_S2660000x1_S2660000x1_1_0_0_1_wf : ScatterDims.WF S100000x1 S2660000x1 S2660000x1 [1] [0] [0] 1

variable [Facts₀]

def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def scatter_S100000_S2660000x1_S2660000_n_0_0_1 : ScatterDims S100000 S2660000x1 S2660000 where
  updateWindowDims := []
  insertedWindowDims := [0]
  scatterDimsToOperandDims := [0]
  indexVectorDim := 1
  wf := scatter_S100000_S2660000x1_S2660000_n_0_0_1_wf
def gather_S100000_S2660000x1_S2660000_n_0_n_n_0_1_1 : GatherDims S100000 S2660000x1 S2660000 where
  offsetDims := []
  collapsedSliceDims := [0]
  operandBatchingDims := []
  startIndicesBatchingDims := []
  startIndexMap := [0]
  indexVectorDim := 1
  sliceSizes := ![1]
  wf := gather_S100000_S2660000x1_S2660000_n_0_n_n_0_1_1_wf
def gather_S100000x32_S2660000x1_S2660000x32_1_0_n_n_0_1_132 : GatherDims S100000x32 S2660000x1 S2660000x32 where
  offsetDims := [1]
  collapsedSliceDims := [0]
  operandBatchingDims := []
  startIndicesBatchingDims := []
  startIndexMap := [0]
  indexVectorDim := 1
  sliceSizes := ![1, 32]
  wf := gather_S100000x32_S2660000x1_S2660000x32_1_0_n_n_0_1_132_wf
def scatter_S100000x32_S2660000x1_S2660000x32_1_0_0_1 : ScatterDims S100000x32 S2660000x1 S2660000x32 where
  updateWindowDims := [1]
  insertedWindowDims := [0]
  scatterDimsToOperandDims := [0]
  indexVectorDim := 1
  wf := scatter_S100000x32_S2660000x1_S2660000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S2660000x1_S2660000x1_1_0_n_n_0_1_11 : GatherDims S100000x1 S2660000x1 S2660000x1 where
  offsetDims := [1]
  collapsedSliceDims := [0]
  operandBatchingDims := []
  startIndicesBatchingDims := []
  startIndexMap := [0]
  indexVectorDim := 1
  sliceSizes := ![1, 1]
  wf := gather_S100000x1_S2660000x1_S2660000x1_1_0_n_n_0_1_11_wf
def scatter_S100000x1_S2660000x1_S2660000x1_1_0_0_1 : ScatterDims S100000x1 S2660000x1 S2660000x1 where
  updateWindowDims := [1]
  insertedWindowDims := [0]
  scatterDimsToOperandDims := [0]
  indexVectorDim := 1
  wf := scatter_S100000x1_S2660000x1_S2660000x1_1_0_0_1_wf

class Facts : Prop extends Facts₀ where

variable [Facts]
-- ==== Proof.Spec.lean ====
/-
  The three dense, per-node stages of a two-layer graph convolution, each as ONE function of whole arrays, read index by
  index on the extended reals. Between them the network gathers rows along edges, scales them by the symmetric degree
  normalisation and scatter-adds them back to nodes; those stages are common to both programs and are never opened.

    * `dense x w`      : row i, column j  ↦  Σ_k x[i,k] · w[k,j]                      (100000×2 by 2×32)
    * `hidden a b w`   : row i            ↦  Σ_k max(a[i,k] + b[0,k], 0) · w[k,0]     (bias, rectifier, 32×1 transform)
    * `addBias a b`    : row i            ↦  a[i,0] + b[0,0]

  The rectifier's zero is kept as the float word it is printed as: the same word stands on both sides and is never
  evaluated.
-/
import Idealize.ShloMosaic.PureOps.Ideal
import Idealize.ShloMosaic.Lib.ValueIdx

noncomputable section

namespace Cert.Gcn

open Idealize.ShloMosaic Idealize.ShloMosaic.ValueIdx

/-- Node features, 100000 × 2. -/
abbrev NodesIn : Shape := ⟨2, ![100000, 2]⟩
/-- First weight matrix, 2 × 32. -/
abbrev WeightIn : Shape := ⟨2, ![2, 32]⟩
/-- Hidden features, 100000 × 32. -/
abbrev NodesHidden : Shape := ⟨2, ![100000, 32]⟩
/-- First bias as a row, 1 × 32. -/
abbrev BiasHidden : Shape := ⟨2, ![1, 32]⟩
/-- Second weight matrix, 32 × 1. -/
abbrev WeightOut : Shape := ⟨2, ![32, 1]⟩
/-- Output features, 100000 × 1. -/
abbrev NodesOut : Shape := ⟨2, ![100000, 1]⟩
/-- Second bias as a 1 × 1 array. -/
abbrev BiasOut : Shape := ⟨2, ![1, 1]⟩

/-- The first dense transform: entry (i, j) is the sum over the two input features of x[i,k] · w[k,j]. -/
def dense (x : (⟨NodesIn, .f32⟩ : BufTy).Contents (Elt Ideal)) (w : (⟨WeightIn, .f32⟩ : BufTy).Contents (Elt Ideal)) :
    (⟨NodesHidden, .f32⟩ : BufTy).Contents (Elt Ideal) :=
  fun i => ∑ k : Fin 2, x (ix2 (i 0) k) * w (ix2 k (i 1))

/-- Bias, rectifier and the second dense transform fused: entry (i, j) is the sum over the 32 hidden features of
    max(a[i,k] + b[0,k], 0) · w[k,j]. -/
def hidden (a : (⟨NodesHidden, .f32⟩ : BufTy).Contents (Elt Ideal)) (b : (⟨BiasHidden, .f32⟩ : BufTy).Contents (Elt Ideal))
    (w : (⟨WeightOut, .f32⟩ : BufTy).Contents (Elt Ideal)) : (⟨NodesOut, .f32⟩ : BufTy).Contents (Elt Ideal) :=
  fun i => ∑ k : Fin 32, max (a (ix2 (i 0) k) + b (ix2 0 k)) (Ideal.ofBits .f32 0x00000000#32) * w (ix2 k (i 1))

/-- The final bias: entry i is a[i] + b[0,0]. -/
def addBias (a : (⟨NodesOut, .f32⟩ : BufTy).Contents (Elt Ideal)) (b : (⟨BiasOut, .f32⟩ : BufTy).Contents (Elt Ideal)) :
    (⟨NodesOut, .f32⟩ : BufTy).Contents (Elt Ideal) :=
  fun i => a i + b (ix2 0 0)

end Cert.Gcn

end
-- ==== Proof.DenseValue.lean ====
/-
  The first kernel region, read as a value: ten grid points, point t owning rows 10000·t … 10000·t + 9999 of the
  100000 × 32 hidden array. At a point the body multiplies its 10000 × 2 block of node features by the whole 2 × 32 weight
  matrix, into a zero accumulator; on the extended reals the narrowing of both operands to bf16 is the identity and the
  product is the plain sum over the two input features. So every block is the restriction of ONE whole-array function,
  `dense x w`, and the ten blocks tile the array: after the region the output array is that function of the arrays the
  region found, whatever they are (`V`).
-/
import proofs.«133545_j89292370084484_1_alg».proof.Proof.Gen.KernelIdeal.Frame
import proofs.«133545_j89292370084484_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The node features the region finds, at their literal type. -/
abbrev featArr (c : Dev nD) : (⟨S100000x2, .f32⟩ : BufTy).Contents (Elt Ideal) := V c main_arg0
/-- The weight matrix the region finds, at its literal type. -/
abbrev weightArr (c : Dev nD) : (⟨S2x32, .f32⟩ : BufTy).Contents (Elt Ideal) := V c main_arg2

theorem offs_zero : (![0, 0] : Fin 2 → Nat) = fun _ => 0 := funext fun a => by fin_cases a <;> rfl

/-! The block product's operand indices at an output index (i, j) and a contraction index q: (i, q) and (q, j). -/

theorem lhs_row (i : S10000x32.Idx) (q : dot_S10000x2_S2x32_S10000x32_1_0_0_1_n_n.contr.Idx) :
    (dot_S10000x2_S2x32_S10000x32_1_0_0_1_n_n.lhsIdx i q 0).val = (i 0).val := by
  unfold DotDims.lhsIdx
  rw [dif_neg (show ¬(0 : Fin S10000x2.rank) ∈ dot_S10000x2_S2x32_S10000x32_1_0_0_1_n_n.lhsBatch by decide), dif_pos (show (0 : Fin S10000x2.rank) ∈ dot_S10000x2_S2x32_S10000x32_1_0_0_1_n_n.lhsNonContracting by decide)]
  rfl
theorem lhs_col (i : S10000x32.Idx) (q : dot_S10000x2_S2x32_S10000x32_1_0_0_1_n_n.contr.Idx) :
    (dot_S10000x2_S2x32_S10000x32_1_0_0_1_n_n.lhsIdx i q 1).val = (q ⟨0, by decide⟩).val :=
  dot_S10000x2_S2x32_S10000x32_1_0_0_1_n_n.lhsIdx_val_of_single rfl i q
theorem rhs_row (i : S10000x32.Idx) (q : dot_S10000x2_S2x32_S10000x32_1_0_0_1_n_n.contr.Idx) :
    (dot_S10000x2_S2x32_S10000x32_1_0_0_1_n_n.rhsIdx i q 0).val = (q ⟨0, by decide⟩).val :=
  dot_S10000x2_S2x32_S10000x32_1_0_0_1_n_n.rhsIdx_val_of_single rfl i q
theorem rhs_col (i : S10000x32.Idx) (q : dot_S10000x2_S2x32_S10000x32_1_0_0_1_n_n.contr.Idx) :
    (dot_S10000x2_S2x32_S10000x32_1_0_0_1_n_n.rhsIdx i q 1).val = (i 1).val := by
  unfold DotDims.rhsIdx
  rw [dif_neg (show ¬(1 : Fin S2x32.rank) ∈ dot_S10000x2_S2x32_S10000x32_1_0_0_1_n_n.rhsBatch by decide), dif_pos (show (1 : Fin S2x32.rank) ∈ dot_S10000x2_S2x32_S10000x32_1_0_0_1_n_n.rhsNonContracting by decide)]
  rfl

/-- The body's value at entry (i, j) of its block: the sum over the two input features of x[i,k] · w[k,j]. -/
theorem pay_apply (x0 : Vec Ideal S10000x2 .f32) (x1 : Vec Ideal S2x32 .f32) (j : S10000x32.Idx) :
    k0_pay1 x0 x1 j = ∑ k : Fin 2, x0 (ix2 (j 0) k) * x1 (ix2 k (j 1)) := by
  unfold k0_pay1
  simp only [matmul]
  rw [Ideal.matmul_constant_zero_apply, ← Equiv.sum_comp (ValueIdx.contrEquiv1 dot_S10000x2_S2x32_S10000x32_1_0_0_1_n_n 2 rfl rfl).symm]
  refine Finset.sum_congr rfl fun k _ => ?_
  have hk := ValueIdx.contrEquiv1_symm_val dot_S10000x2_S2x32_S10000x32_1_0_0_1_n_n 2 rfl rfl k
  have el : dot_S10000x2_S2x32_S10000x32_1_0_0_1_n_n.lhsIdx j ((ValueIdx.contrEquiv1 dot_S10000x2_S2x32_S10000x32_1_0_0_1_n_n 2 rfl rfl).symm k) = ix2 (j 0) k := funext fun a => Fin.ext (by
    match a with
    | ⟨0, _⟩ => exact lhs_row _ _
    | ⟨1, _⟩ => exact (lhs_col _ _).trans hk)
  have er : dot_S10000x2_S2x32_S10000x32_1_0_0_1_n_n.rhsIdx j ((ValueIdx.contrEquiv1 dot_S10000x2_S2x32_S10000x32_1_0_0_1_n_n 2 rfl rfl).symm k) = ix2 k (j 1) := funext fun a => Fin.ext (by
    match a with
    | ⟨0, _⟩ => exact (rhs_row _ _).trans hk
    | ⟨1, _⟩ => exact rhs_col _ _)
  rw [el, er]
  rfl

/-- The index maps over the grid: the feature block moves with the output block along the rows and sits at column block
    0; the weight block stays; the output's row block index is the point's number, its column block index 0. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- What point `t` writes back is block `t` of `dense` of the arrays the region found. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero offs_zero]
  simp only [View.ld_unit_zero (S := S10000x2) offs_zero, View.ld_unit_zero (S := S2x32) offs_zero]
  obtain ⟨e0, e1, e2, e3, e4⟩ := idx_facts t
  funext j
  refine (pay_apply (iblk0 V c 0 t) (iblk0 V c 1 t) j).trans ?_
  show ∑ k : Fin 2, featArr V c (((cfg0.win 0).blk t).view.emb (ix2 (j 0) k)) * weightArr V c (((cfg0.win 1).blk t).view.emb (ix2 k (j 1)))
      = ∑ k : Fin 2, featArr V c (ix2 ((((cfg0.win 2).blk t).view.emb j) 0) k) * weightArr V c (ix2 k ((((cfg0.win 2).blk t).view.emb j) 1))
  refine Finset.sum_congr rfl fun k _ => ?_
  have hk : k.val < 2 := k.isLt
  have h0 : ((cfg0.win 0).blk t).view.emb (ix2 (j 0) k) = (ix2 ((((cfg0.win 2).blk t).view.emb j) 0) k : S100000x2.Idx) := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 2 + 1 * k.val = k.val; omega
  have h1 : ((cfg0.win 1).blk t).view.emb (ix2 k (j 1)) = (ix2 k ((((cfg0.win 2).blk t).view.emb j) 1) : S2x32.Idx) := by
    funext a; apply Fin.ext
    match a with
    | ⟨0, _⟩ => show win0_1.index t (0 : Fin 2) * 2 + 1 * k.val = k.val; omega
    | ⟨1, _⟩ => show win0_1.index t (1 : Fin 2) * 32 + 1 * (j 1).val = win0_2.index t (1 : Fin 2) * 32 + 1 * (j 1).val; omega
  rw [h0, h1]

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v30).slice (win0_2.rect t)).set ↔ _
  rw [View.set_slice_whole, Rect.mem_set_unit]
  exact Iff.rfl

/-- Every block index on the row axis is some point's. -/
theorem idx_onto : ∀ q : Fin 10, ∃ t : Fin cfg0.N, win0_2.index t (0 : Fin 2) = q.val ∧ win0_2.index t (1 : Fin 2) = 0 :=
  (by decide +kernel : ∀ q : Fin 10, ∃ t : Fin grid0.N, _)

/-- The ten blocks tile the array: row r lies in the block of point r / 10000, every column in column block 0. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, q0, q1⟩ := idx_onto ⟨(i 0).val / 10000, by omega⟩
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; simp only at q0; omega
  | ⟨1, _⟩ => show win0_2.index t (1 : Fin 2) * 32 ≤ (i 1).val ∧ (i 1).val < win0_2.index t (1 : Fin 2) * 32 + 32; omega

/-- After the region the output array is `dense` of the two arrays the region found. -/
theorem final (c : Dev nD) : (dat0 V c).arrAt 2 cfg0.N = dense (V c main_arg0) (V c main_arg2) :=
  (dat0 V c).arrAt_eq_of_cover 2 _ (fun t _ => flushed_eq V c t) cover

end Cert.Gcn.Dense

end
-- ==== Proof.HiddenValue.lean ====
/-
  The middle kernel region, read as a value: ten grid points, point t owning rows 10000·t … 10000·t + 9999 of a
  100000 × 1 array. At a point the body adds the bias row to its 10000 × 32 block of aggregated features, takes the maximum
  with zero, and multiplies by the whole 32 × 1 weight matrix into a zero accumulator; on the extended reals the
  narrowing to bf16 is the identity and the product is the plain sum over the 32 hidden features. So every block is the
  restriction of ONE whole-array function, `hidden a b w`, and the ten blocks tile the array: after the region the output
  array is that function of the arrays the region found, whatever they are (`V`).
-/
import proofs.«133545_j89292370084484_1_alg».proof.Proof.Gen.KernelIdeal.Frame
import proofs.«133545_j89292370084484_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Hidden

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregated hidden features the region finds, at their literal type. -/
abbrev aggArr (c : Dev nD) : (⟨S100000x32, .f32⟩ : BufTy).Contents (Elt Ideal) := V c main_v43
/-- The bias row the region finds, at its literal type. -/
abbrev biasArr (c : Dev nD) : (⟨S1x32, .f32⟩ : BufTy).Contents (Elt Ideal) := V c main_v44
/-- The weight matrix the region finds, at its literal type. -/
abbrev weightArr (c : Dev nD) : (⟨S32x1, .f32⟩ : BufTy).Contents (Elt Ideal) := V c main_arg4

theorem offs_zero : (![0, 0] : Fin 2 → Nat) = fun _ => 0 := funext fun a => by fin_cases a <;> rfl

/-! The block product's operand indices at an output index (i, j) and a contraction index q: (i, q) and (q, j). -/

theorem lhs_row (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
theorem lhs_col (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q
theorem rhs_row (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q
theorem rhs_col (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- The rectified, biased block at entry (p, k): max(a[p,k] + b[0,k], 0). -/
theorem act_apply (x0 : Vec Ideal S10000x32 .f32) (x1 : Vec Ideal S1x32 .f32) (p : Fin 10000) (k : Fin 32) :
    maximumf (addf (shapeCast S10000x32 x0 shapeCasts_S10000x32_S10000x32)
        (broadcastTo S10000x32 (shapeCast S1x32 x1 shapeCasts_S1x32_S1x32) broadcasts_S1x32_S10000x32))
      (broadcast S10000x32 (Scalar.ofBits (F := Ideal) .f32 0x00000000#32)) (ix2 p k)
    = max (x0 (ix2 p k) + x1 (ix2 0 k)) (Ideal.ofBits .f32 0x00000000#32) := by
  show max ((shapeCast S10000x32 x0 shapeCasts_S10000x32_S10000x32) (ix2 p k)
      + (broadcastTo S10000x32 (shapeCast S1x32 x1 shapeCasts_S1x32_S1x32) broadcasts_S1x32_S10000x32) (ix2 p k)) _ = _
  rw [shapeCast_self, shapeCast_self,
    broadcastTo_apply x1 broadcasts_S1x32_S10000x32 (ix2 p k) (ix2 0 k) (fun a => match a with
      | ⟨0, _⟩ => by show 0 = if (1 : Nat) = 1 then 0 else _; rw [if_pos rfl]
      | ⟨1, _⟩ => by show k.val = if (32 : Nat) = 1 then 0 else k.val; rw [if_neg (by decide)])]
  rfl

/-- The body's value at entry (i, j) of its block: the sum over the 32 hidden features of
    max(a[i,k] + b[0,k], 0) · w[k,j]. -/
theorem pay_apply (x0 : Vec Ideal S10000x32 .f32) (x1 : Vec Ideal S1x32 .f32) (x2 : Vec Ideal S32x1 .f32) (j : S10000x1.Idx) :
    k1_pay1 x0 x1 x2 j = ∑ k : Fin 32, max (x0 (ix2 (j 0) k) + x1 (ix2 0 k)) (Ideal.ofBits .f32 0x00000000#32) * x2 (ix2 k (j 1)) := by
  unfold k1_pay1
  simp only [matmul]
  rw [Ideal.matmul_constant_zero_apply, ← Equiv.sum_comp (ValueIdx.contrEquiv1 dot_S10000x32_S32x1_S10000x1_1_0_0_1_n_n 32 rfl rfl).symm]
  refine Finset.sum_congr rfl fun k _ => ?_
  have hk := ValueIdx.contrEquiv1_symm_val dot_S10000x32_S32x1_S10000x1_1_0_0_1_n_n 32 rfl rfl k
  have el : dot_S10000x32_S32x1_S10000x1_1_0_0_1_n_n.lhsIdx j ((ValueIdx.contrEquiv1 dot_S10000x32_S32x1_S10000x1_1_0_0_1_n_n 32 rfl rfl).symm k) = ix2 (j 0) k := funext fun a => Fin.ext (by
    match a with
    | ⟨0, _⟩ => exact lhs_row _ _
    | ⟨1, _⟩ => exact (lhs_col _ _).trans hk)
  have er : dot_S10000x32_S32x1_S10000x1_1_0_0_1_n_n.rhsIdx j ((ValueIdx.contrEquiv1 dot_S10000x32_S32x1_S10000x1_1_0_0_1_n_n 32 rfl rfl).symm k) = ix2 k (j 1) := funext fun a => Fin.ext (by
    match a with
    | ⟨0, _⟩ => exact (rhs_row _ _).trans hk
    | ⟨1, _⟩ => exact rhs_col _ _)
  rw [el, er]
  exact congrArg (· * x2 (ix2 k (j 1))) (act_apply x0 x1 (j 0) k)

/-- The index maps over the grid: the aggregated block moves with the output block along the rows and sits at column
    block 0; the bias row and the weight matrix stay; the output's column block index is 0. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- What point `t` writes back is block `t` of `hidden` of the arrays the region found. -/
theorem flushed_eq (c : Dev nD) (t : Fin cfg1.N) :
    (dat1 V c).flushed 3 t = ((cfg1.win 3).blk t).view.read (Elt Ideal) (hidden (V c main_v43) (V c main_v44) (V c main_arg4)) := by
  show (cfg1.win 3).cut (grid1.coords t) ((dat1 V c).after 3 t) = _
  rw [after1_3]
  unfold out1_3
  rw [View.canon_unit_zero offs_zero]
  simp only [View.ld_unit_zero (S := S10000x32) offs_zero, View.ld_unit_zero (S := S1x32) offs_zero, View.ld_unit_zero (S := S32x1) offs_zero]
  obtain ⟨e0, e1, e2, e3, e4, e5, e6⟩ := idx_facts t
  funext j
  refine (pay_apply (iblk1 V c 0 t) (iblk1 V c 1 t) (iblk1 V c 2 t) j).trans ?_
  show ∑ k : Fin 32, max (aggArr V c (((cfg1.win 0).blk t).view.emb (ix2 (j 0) k)) + biasArr V c (((cfg1.win 1).blk t).view.emb (ix2 0 k))) (Ideal.ofBits .f32 0x00000000#32)
        * weightArr V c (((cfg1.win 2).blk t).view.emb (ix2 k (j 1)))
      = ∑ k : Fin 32, max (aggArr V c (ix2 ((((cfg1.win 3).blk t).view.emb j) 0) k) + biasArr V c (ix2 0 k)) (Ideal.ofBits .f32 0x00000000#32)
        * weightArr V c (ix2 k ((((cfg1.win 3).blk t).view.emb j) 1))
  refine Finset.sum_congr rfl fun k _ => ?_
  have hk : k.val < 32 := k.isLt
  have h0 : ((cfg1.win 0).blk t).view.emb (ix2 (j 0) k) = (ix2 ((((cfg1.win 3).blk t).view.emb j) 0) k : S100000x32.Idx) := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 32 + 1 * k.val = k.val; omega
  have h1 : ((cfg1.win 1).blk t).view.emb (ix2 0 k) = (ix2 0 k : S1x32.Idx) := by
    funext a; apply Fin.ext
    match a with
    | ⟨0, _⟩ => show win1_1.index t (0 : Fin 2) * 1 + 1 * 0 = 0; omega
    | ⟨1, _⟩ => show win1_1.index t (1 : Fin 2) * 32 + 1 * k.val = k.val; omega
  have h2 : ((cfg1.win 2).blk t).view.emb (ix2 k (j 1)) = (ix2 k ((((cfg1.win 3).blk t).view.emb j) 1) : S32x1.Idx) := by
    funext a; apply Fin.ext
    match a with
    | ⟨0, _⟩ => show win1_2.index t (0 : Fin 2) * 32 + 1 * k.val = k.val; omega
    | ⟨1, _⟩ => show win1_2.index t (1 : Fin 2) * 1 + 1 * (j 1).val = win1_3.index t (1 : Fin 2) * 1 + 1 * (j 1).val; omega
  rw [h0, h1, h2]

/-- An index of the output array is in point `t`'s block iff each coordinate is in the block's range on its axis. -/
theorem mem_blk (t : Fin cfg1.N) (i : S100000x1.Idx) :
    i ∈ ((cfg1.win 3).blk t).view.set ↔ ∀ a : Fin 2, win1_3.index t a * S10000x1.size a ≤ (i a).val
      ∧ (i a).val < win1_3.index t a * S10000x1.size a + S10000x1.size a := by
  show i ∈ ((View.whole main_v45).slice (win1_3.rect t)).set ↔ _
  rw [View.set_slice_whole, Rect.mem_set_unit]
  exact Iff.rfl

/-- Every block index on the row axis is some point's. -/
theorem idx_onto : ∀ q : Fin 10, ∃ t : Fin cfg1.N, win1_3.index t (0 : Fin 2) = q.val ∧ win1_3.index t (1 : Fin 2) = 0 :=
  (by decide +kernel : ∀ q : Fin 10, ∃ t : Fin grid1.N, _)

/-- The ten blocks tile the array: row r lies in the block of point r / 10000. -/
theorem cover (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, q0, q1⟩ := idx_onto ⟨(i 0).val / 10000, by omega⟩
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; simp only at q0; omega
  | ⟨1, _⟩ => show win1_3.index t (1 : Fin 2) * 1 ≤ (i 1).val ∧ (i 1).val < win1_3.index t (1 : Fin 2) * 1 + 1; omega

/-- After the region the output array is `hidden` of the three arrays the region found. -/
theorem final (c : Dev nD) : (dat1 V c).arrAt 3 cfg1.N = hidden (V c main_v43) (V c main_v44) (V c main_arg4) :=
  (dat1 V c).arrAt_eq_of_cover 3 _ (fun t _ => flushed_eq V c t) cover

end Cert.Gcn.Hidden

end
-- ==== Proof.BiasAddValue.lean ====
/-
  The last kernel region, read as a value: ten grid points, point t owning rows 10000·t … 10000·t + 9999 of a
  100000 × 1 array. At a point the body adds the one bias entry to every row of its block. Every block is therefore the
  restriction of ONE whole-array function, `addBias a b`, and the ten blocks tile the array, so after the region the
  output array is that function of the arrays the region found — whatever those arrays are (`V`).
-/
import proofs.«133545_j89292370084484_1_alg».proof.Proof.Gen.KernelIdeal.Frame
import proofs.«133545_j89292370084484_1_alg».proof.Proof.Spec
import Idealize.ShloMosaic.Lib.Pipeline.Value
import Idealize.ShloMosaic.Lib.ValueIdx

set_option maxRecDepth 16384

noncomputable section

namespace Cert.Gcn.BiasAdd

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregated array the region finds, at its literal type. -/
abbrev aggArr (c : Dev nD) : (⟨S100000x1, .f32⟩ : BufTy).Contents (Elt Ideal) := V c main_v57
/-- The bias array the region finds, at its literal type. -/
abbrev biasArr (c : Dev nD) : (⟨S1x1, .f32⟩ : BufTy).Contents (Elt Ideal) := V c main_v58

theorem offs_zero : (![0, 0] : Fin 2 → Nat) = fun _ => 0 := funext fun a => by fin_cases a <;> rfl

/-- The body's value at a row of its block: that row of the aggregated block plus the bias entry. -/
theorem pay_apply (x0 : Vec Ideal S10000x1 .f32) (x1 : Vec Ideal S1x1 .f32) (j : S10000x1.Idx) :
    k2_pay1 x0 x1 j = x0 j + x1 (ix2 0 0) := by
  unfold k2_pay1
  show (shapeCast S10000x1 x0 shapeCasts_S10000x1_S10000x1) j
      + (broadcastTo S10000x1 (shapeCast S1x1 x1 shapeCasts_S1x1_S1x1) broadcasts_S1x1_S10000x1) j = _
  rw [shapeCast_self, shapeCast_self,
    broadcastTo_apply x1 broadcasts_S1x1_S10000x1 j (ix2 0 0) (fun a => match a with
      | ⟨0, _⟩ => by show 0 = if (1 : Nat) = 1 then 0 else _; rw [if_pos rfl]
      | ⟨1, _⟩ => by show 0 = if (1 : Nat) = 1 then 0 else _; rw [if_pos rfl])]

/-- The index maps over the grid: the input block moves with the output block, the bias block stays, and the output's
    block index on the row axis is the point's number. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `addBias` of the arrays the region found. -/
theorem flushed_eq (c : Dev nD) (t : Fin cfg2.N) :
    (dat2 V c).flushed 2 t = ((cfg2.win 2).blk t).view.read (Elt Ideal) (addBias (V c main_v57) (V c main_v58)) := by
  show (cfg2.win 2).cut (grid2.coords t) ((dat2 V c).after 2 t) = _
  rw [after2_2]
  unfold out2_2
  rw [View.canon_unit_zero offs_zero]
  simp only [View.ld_unit_zero (S := S10000x1) offs_zero, View.ld_unit_zero (S := S1x1) offs_zero]
  obtain ⟨e0, e1, e2, e3, e4, e5⟩ := idx_facts t
  funext j
  refine (pay_apply (iblk2 V c 0 t) (iblk2 V c 1 t) j).trans ?_
  show aggArr V c (((cfg2.win 0).blk t).view.emb j) + biasArr V c (((cfg2.win 1).blk t).view.emb (ix2 0 0))
      = aggArr V c (((cfg2.win 2).blk t).view.emb j) + biasArr V c (ix2 0 0)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 1 + 1 * (j 1).val = win2_2.index t (1 : Fin 2) * 1 + 1 * (j 1).val; omega
  have h1 : ((cfg2.win 1).blk t).view.emb (ix2 0 0) = (ix2 0 0 : S1x1.Idx) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  rw [h0, h1]

/-- An index of the output array is in point `t`'s block iff each coordinate is in the block's range on its axis. -/
theorem mem_blk (t : Fin cfg2.N) (i : S100000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v59).slice (win2_2.rect t)).set ↔ _
  rw [View.set_slice_whole, Rect.mem_set_unit]
  exact Iff.rfl

/-- Every block index on the row axis is some point's. -/
theorem idx_onto : ∀ q : Fin 10, ∃ t : Fin cfg2.N, win2_2.index t (0 : Fin 2) = q.val ∧ win2_2.index t (1 : Fin 2) = 0 :=
  (by decide +kernel : ∀ q : Fin 10, ∃ t : Fin grid2.N, _)

/-- The ten blocks tile the array: row r lies in the block of point r / 10000. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, q0, q1⟩ := idx_onto ⟨(i 0).val / 10000, by omega⟩
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; simp only at q0; omega
  | ⟨1, _⟩ => show win2_2.index t (1 : Fin 2) * 1 ≤ (i 1).val ∧ (i 1).val < win2_2.index t (1 : Fin 2) * 1 + 1; omega

/-- After the region the output array is `addBias` of the two arrays the region found. -/
theorem final (c : Dev nD) : (dat2 V c).arrAt 2 cfg2.N = addBias (V c main_v57) (V c main_v58) :=
  (dat2 V c).arrAt_eq_of_cover 2 _ (fun t _ => flushed_eq V c t) cover

end Cert.Gcn.BiasAdd

end
-- ==== Proof.RefValue.lean ====
/-
  The reference, read as one composition. Its result is

      addBias (aggregateOut e (hidden (aggregateHidden e (dense x w1)) b1 w2)) b2

  where `dense`, `hidden`, `addBias` are the three per-node stages (index by index: a `dot_general` is the plain sum
  over its contracted axis, a broadcast bias is read at row 0, the rectifier is a maximum with the zero word) and
  `aggregateHidden e`, `aggregateOut e` are the two message-passing stages: gather the rows of the node array at the
  edges' source nodes, scale each by the symmetric degree normalisation of its edge, scatter-add into the destination
  nodes. The message-passing stages are kept as the reference's own stages of the edge array `e` and are never opened.
-/
import proofs.«133545_j89292370084484_1_alg».proof.Proof.RefRead
import proofs.«133545_j89292370084484_1_alg».proof.Proof.Spec

set_option maxRecDepth 16384

noncomputable section

namespace Cert.Gcn.Reference

open Cert.ReferenceIdeal Cert.ReferenceIdeal.ReadP
open Idealize.ShloMosaic Idealize.ShloMosaic.ValueIdx

/-- First message-passing stage, on 32 features per node: gather at the source nodes, scale by the edge
    normalisation, scatter-add at the destination nodes. -/
def aggregateHidden (e : (⟨S2x2560000, .i32⟩ : BufTy).Contents (Elt Ideal)) (h : (⟨S100000x32, .f32⟩ : BufTy).Contents (Elt Ideal)) :
    (⟨S100000x32, .f32⟩ : BufTy).Contents (Elt Ideal) :=
  Host.scatterAdd (F := Ideal) (φ := .f32) scatter_S100000x32_S2660000x1_S2660000x32_1_0_0_1 (val_main_v41 (F := Ideal)) (val_main_v42 (F := Ideal) e)
    (mulf (val_main_v39 (F := Ideal) e) (Host.gather gather_S100000x32_S2660000x1_S2660000x32_1_0_n_n_0_1_132 h (val_main_v37 (F := Ideal) e)))

/-- Second message-passing stage, on one feature per node. -/
def aggregateOut (e : (⟨S2x2560000, .i32⟩ : BufTy).Contents (Elt Ideal)) (h : (⟨S100000x1, .f32⟩ : BufTy).Contents (Elt Ideal)) :
    (⟨S100000x1, .f32⟩ : BufTy).Contents (Elt Ideal) :=
  Host.scatterAdd (F := Ideal) (φ := .f32) scatter_S100000x1_S2660000x1_S2660000x1_1_0_0_1 (val_main_v88 (F := Ideal)) (val_main_v89 (F := Ideal) e)
    (mulf (val_main_v79 (F := Ideal) e) (Host.gather gather_S100000x1_S2660000x1_S2660000x1_1_0_n_n_0_1_11 h (val_main_v85 (F := Ideal) e)))

variable (x0 : (⟨S100000x2, .f32⟩ : BufTy).Contents (Elt Ideal)) (x1 : (⟨S2x2560000, .i32⟩ : BufTy).Contents (Elt Ideal))
  (x2 : (⟨S2x32, .f32⟩ : BufTy).Contents (Elt Ideal)) (x3 : (⟨S32, .f32⟩ : BufTy).Contents (Elt Ideal))
  (x4 : (⟨S32x1, .f32⟩ : BufTy).Contents (Elt Ideal)) (x5 : (⟨S1, .f32⟩ : BufTy).Contents (Elt Ideal))

/-- The first aggregated array is the first message-passing stage of the first dense transform's result. -/
theorem stage_aggregateHidden : val_main_v43 (F := Ideal) x0 x1 x2 = aggregateHidden x1 (val_main_v0 (F := Ideal) x0 x2) := by
  unfold val_main_v43 val_main_v40 val_main_v38 aggregateHidden
  rfl

/-- The second aggregated array is the second message-passing stage of the second dense transform's result. -/
theorem stage_aggregateOut :
    val_main_v90 (F := Ideal) x0 x1 x2 x3 x4 = aggregateOut x1 (val_main_v48 (F := Ideal) x0 x1 x2 x3 x4) := by
  unfold val_main_v90 val_main_v87 val_main_v86 aggregateOut
  rfl

/-- The first `dot_general` is `dense`. -/
theorem stage_dense : val_main_v0 (F := Ideal) x0 x2 = dense x0 x2 := by
  funext i
  rw [val_main_v0_apply]
  unfold dense
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

/-- Bias, rectifier and the second `dot_general` are `hidden` of the aggregated array, the bias row and the weights. -/
theorem stage_hidden : val_main_v48 (F := Ideal) x0 x1 x2 x3 x4
    = hidden (val_main_v43 (F := Ideal) x0 x1 x2) (val_main_v44 (F := Ideal) x3) x4 := by
  funext i
  rw [val_main_v48_apply]
  unfold hidden
  refine Finset.sum_congr rfl fun k _ => ?_
  rw [val_main_v47_apply, val_main_v46_apply, val_main_v45_apply, val_main_call1_v0_apply, val_main_call1_cst_apply]
  have el : lidx_main_v48 i k = ix2 (i 0) k := funext fun a => Fin.ext (by match a with | ⟨0, _⟩ => rfl | ⟨1, _⟩ => rfl)
  have eb : idx_main_v45 (lidx_main_v48 i k) = ix2 0 k := funext fun a => Fin.ext (by match a with | ⟨0, _⟩ => rfl | ⟨1, _⟩ => rfl)
  have er : ridx_main_v48 i k = ix2 k (i 1) := funext fun a => Fin.ext (by match a with | ⟨0, _⟩ => rfl | ⟨1, _⟩ => rfl)
  rw [eb, el, er]
  rfl

/-- The final add of the broadcast bias is `addBias`. -/
theorem stage_addBias : val_main_v93 (F := Ideal) x0 x1 x2 x3 x4 x5
    = addBias (val_main_v90 (F := Ideal) x0 x1 x2 x3 x4) (val_main_v91 (F := Ideal) x5) := by
  funext i
  rw [val_main_v93_apply, val_main_v92_apply]
  unfold addBias
  have eb : idx_main_v92 i = ix2 0 0 := funext fun a => Fin.ext (by match a with | ⟨0, _⟩ => rfl | ⟨1, _⟩ => rfl)
  rw [eb]
  rfl

/-- THE REFERENCE'S RESULT as one composition of the five stages. -/
theorem result_eq : val_main_v93 (F := Ideal) x0 x1 x2 x3 x4 x5
    = addBias (aggregateOut x1 (hidden (aggregateHidden x1 (dense x0 x2)) (val_main_v44 (F := Ideal) x3) x4)) (val_main_v91 (F := Ideal) x5) := by
  rw [stage_addBias, stage_aggregateOut, stage_hidden, stage_aggregateHidden, stage_dense]

end Cert.Gcn.Reference

end
-- ==== Proof.KernelEdges.lean ====
/-
  The edge-only buffers of the kernel program, before its first region. From the edge list e the host operations make,
  once: the source and the destination node of every edge with the 100000 self loops appended; the degree of every node
  (a scatter-add of ones at the destination nodes); its inverse square root where the degree is positive and zero
  elsewhere; and the normalisation of every edge, the product of that value at its two end nodes. Each is identified, as
  a whole term and one boundary at a time, with the reference's stage of the same name; none is opened. The selection
  and the normalisation are first stated over ARBITRARY contents of the buffers they read, so that no full-size array
  is in sight when their operations are composed.
-/
import proofs.«133545_j89292370084484_1_alg».proof.Proof.Gen.KernelIdeal.Frame
import proofs.«133545_j89292370084484_1_alg».proof.Proof.RefRead
import Idealize.ShloMosaic.PureOps.Ideal

set_option maxRecDepth 16384
-- one theorem at a time: each walks a stretch of host operations over full-size arrays
set_option Elab.async false
-- a stretch of some forty host operations is composed one rewrite per operation and buffer
set_option maxHeartbeats 4000000

noncomputable section

namespace Cert.Gcn.Kernel

open Cert.KernelIdeal Cert.KernelIdeal.Gen
open Idealize.ShloMosaic Idealize.ShloMosaic.TcCoe Idealize.SL.Sem Idealize.ShloMosaic.StableHlo
open Cert.ReferenceIdeal.ReadP (val_main_v4 val_main_v7 val_main_v13 val_main_v14 val_main_cst_2 val_main_v15 val_main_v30)

variable (m : (ℓ : Loc nD τ sig) → Buf (Elt Ideal) ℓ) (ρ : Dev nD → PrngReg)

/-- The edge list as launched, at its literal type. -/
abbrev edges (c : Dev nD) : (⟨S2x2560000, .i32⟩ : BufTy).Contents (Elt Ideal) := m ((c : Thread nD τ).loc main_arg1)

/-! ## After the first host stretch -/

/-- Source node of every edge, self loops appended. -/
theorem src_W1 (c : Dev nD) : W1 m ρ c (Proc.devRef .tc main_v3) = val_main_v4 (F := Ideal) (edges m c) := by
  show StableHlo.after hostOps0 (W0 m ρ c) (Proc.devRef .tc main_v3) = _
  after_results
  rfl
/-- Destination node of every edge, self loops appended. -/
theorem dst_W1 (c : Dev nD) : W1 m ρ c (Proc.devRef .tc main_v6) = val_main_v7 (F := Ideal) (edges m c) := by
  show StableHlo.after hostOps0 (W0 m ρ c) (Proc.devRef .tc main_v6) = _
  after_results
  rfl
/-- Which nodes have positive degree. -/
theorem pos_W1 (c : Dev nD) : W1 m ρ c (Proc.devRef .tc main_v12) = val_main_v13 (F := Ideal) (edges m c) := by
  show StableHlo.after hostOps0 (W0 m ρ c) (Proc.devRef .tc main_v12) = _
  after_results
  rfl
/-- The inverse square root of every node's degree. -/
theorem rsq_W1 (c : Dev nD) : W1 m ρ c (Proc.devRef .tc main_v13) = val_main_v14 (F := Ideal) (edges m c) := by
  show StableHlo.after hostOps0 (W0 m ρ c) (Proc.devRef .tc main_v13) = _
  after_results
  rfl
/-- The zero the inverse square root is replaced by at degree zero. -/
theorem zero_W1 (c : Dev nD) : W1 m ρ c (Proc.devRef .tc main_cst_2) = val_main_cst_2 (F := Ideal) := by
  show StableHlo.after hostOps0 (W0 m ρ c) (Proc.devRef .tc main_cst_2) = _
  after_results
  rfl

/-! ## After the inlined selection -/

/-- The selection over any contents: where the condition holds the first value, elsewhere the broadcast scalar. -/
theorem where_of (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  rfl

/-- … which, over the three stages above, is the reference's stage. -/
theorem dinv_of (V : Valuation τ sig (Elt Ideal)) (e : (⟨S2x2560000, .i32⟩ : BufTy).Contents (Elt Ideal))
    (h12 : V (Proc.devRef .tc main_v12) = val_main_v13 (F := Ideal) e)
    (h13 : V (Proc.devRef .tc main_v13) = val_main_v14 (F := Ideal) e)
    (hz : V (Proc.devRef .tc main_cst_2) = val_main_cst_2 (F := Ideal)) :
    StableHlo.after hostOps0_1 V (Proc.devRef .tc main_v14) = val_main_v15 (F := Ideal) e := by
  rw [where_of, h12, h13, hz]
  rfl

/-- The inverse square root of the degree where it is positive, zero elsewhere. -/
theorem dinv_W2 (c : Dev nD) : W2 m ρ c (Proc.devRef .tc main_v14) = val_main_v15 (F := Ideal) (edges m c) :=
  dinv_of (W1 m ρ c) (edges m c) (pos_W1 m ρ c) (rsq_W1 m ρ c) (zero_W1 m ρ c)
theorem src_W2 (c : Dev nD) : W2 m ρ c (Proc.devRef .tc main_v3) = val_main_v4 (F := Ideal) (edges m c) := by
  show StableHlo.after hostOps0_1 (StableHlo.after hostOps0 (W0 m ρ c)) (Proc.devRef .tc main_v3) = _
  after_results
  rfl
theorem dst_W2 (c : Dev nD) : W2 m ρ c (Proc.devRef .tc main_v6) = val_main_v7 (F := Ideal) (edges m c) := by
  show StableHlo.after hostOps0_1 (StableHlo.after hostOps0 (W0 m ρ c)) (Proc.devRef .tc main_v6) = _
  after_results
  rfl

/-! ## At the first region's entry -/

/-- The normalisation over any contents of the three buffers it reads: the selected value gathered at the source node
    times the same gathered at the destination node (each index wrapped into range as the gather's lowering writes it). -/
theorem norm_of (V : Valuation τ sig (Elt Ideal)) (e : (⟨S2x2560000, .i32⟩ : BufTy).Contents (Elt Ideal))
    (h14 : V (Proc.devRef .tc main_v14) = val_main_v15 (F := Ideal) e)
    (h3 : V (Proc.devRef .tc main_v3) = val_main_v4 (F := Ideal) e)
    (h6 : V (Proc.devRef .tc main_v6) = val_main_v7 (F := Ideal) e) :
    StableHlo.after hostOps0_2 V (Proc.devRef .tc main_v29) = val_main_v30 (F := Ideal) e := by
  after_results
  rw [h14, h3, h6]
  rfl

/-- The symmetric degree normalisation of every edge. -/
theorem norm_W3 (c : Dev nD) : W3 m ρ c (Proc.devRef .tc main_v29) = val_main_v30 (F := Ideal) (edges m c) :=
  norm_of (W2 m ρ c) (edges m c) (dinv_W2 m ρ c) (src_W2 m ρ c) (dst_W2 m ρ c)
theorem src_W3 (c : Dev nD) : W3 m ρ c (Proc.devRef .tc main_v3) = val_main_v4 (F := Ideal) (edges m c) := by
  show StableHlo.after hostOps0_2 (StableHlo.after hostOps0_1 (StableHlo.after hostOps0 (W0 m ρ c))) (Proc.devRef .tc main_v3) = _
  after_results
  rfl
theorem dst_W3 (c : Dev nD) : W3 m ρ c (Proc.devRef .tc main_v6) = val_main_v7 (F := Ideal) (edges m c) := by
  show StableHlo.after hostOps0_2 (StableHlo.after hostOps0_1 (StableHlo.after hostOps0 (W0 m ρ c))) (Proc.devRef .tc main_v6) = _
  after_results
  rfl

end Cert.Gcn.Kernel

end
-- ==== Proof.KernelArgs.lean ====
/-
  The argument arrays of the kernel program at its first region's entry: no host operation before it writes one, so
  each is read back through the three host stretches to its launch contents.
-/
import proofs.«133545_j89292370084484_1_alg».proof.Proof.Gen.KernelIdeal.Frame
import Idealize.ShloMosaic.PureOps.Ideal

set_option maxRecDepth 16384
-- one theorem at a time: each walks the three stretches of host operations
set_option Elab.async false

noncomputable section

namespace Cert.Gcn.Kernel

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays as launched, at their literal types -/

abbrev feat (c : Dev nD) : (⟨S100000x2, .f32⟩ : BufTy).Contents (Elt Ideal) := m ((c : Thread nD τ).loc main_arg0)
abbrev weightIn (c : Dev nD) : (⟨S2x32, .f32⟩ : BufTy).Contents (Elt Ideal) := m ((c : Thread nD τ).loc main_arg2)
abbrev biasIn (c : Dev nD) : (⟨S32, .f32⟩ : BufTy).Contents (Elt Ideal) := m ((c : Thread nD τ).loc main_arg3)
abbrev weightOut (c : Dev nD) : (⟨S32x1, .f32⟩ : BufTy).Contents (Elt Ideal) := m ((c : Thread nD τ).loc main_arg4)
abbrev biasOut (c : Dev nD) : (⟨S1, .f32⟩ : BufTy).Contents (Elt Ideal) := m ((c : Thread nD τ).loc main_arg5)

set_option maxHeartbeats 4000000 in
theorem feat_W3 (c : Dev nD) : W3 m ρ c (Proc.devRef .tc main_arg0) = feat m c := by
  show StableHlo.after hostOps0_2 (StableHlo.after hostOps0_1 (StableHlo.after hostOps0 (W0 m ρ c))) (Proc.devRef .tc main_arg0) = _
  after_results
set_option maxHeartbeats 4000000 in
theorem weightIn_W3 (c : Dev nD) : W3 m ρ c (Proc.devRef .tc main_arg2) = weightIn m c := by
  show StableHlo.after hostOps0_2 (StableHlo.after hostOps0_1 (StableHlo.after hostOps0 (W0 m ρ c))) (Proc.devRef .tc main_arg2) = _
  after_results
set_option maxHeartbeats 4000000 in
theorem biasIn_W3 (c : Dev nD) : W3 m ρ c (Proc.devRef .tc main_arg3) = biasIn m c := by
  show StableHlo.after hostOps0_2 (StableHlo.after hostOps0_1 (StableHlo.after hostOps0 (W0 m ρ c))) (Proc.devRef .tc main_arg3) = _
  after_results
set_option maxHeartbeats 4000000 in
theorem weightOut_W3 (c : Dev nD) : W3 m ρ c (Proc.devRef .tc main_arg4) = weightOut m c := by
  show StableHlo.after hostOps0_2 (StableHlo.after hostOps0_1 (StableHlo.after hostOps0 (W0 m ρ c))) (Proc.devRef .tc main_arg4) = _
  after_results
set_option maxHeartbeats 4000000 in
theorem biasOut_W3 (c : Dev nD) : W3 m ρ c (Proc.devRef .tc main_arg5) = biasOut m c := by
  show StableHlo.after hostOps0_2 (StableHlo.after hostOps0_1 (StableHlo.after hostOps0 (W0 m ρ c))) (Proc.devRef .tc main_arg5) = _
  after_results

end Cert.Gcn.Kernel

end
-- ==== Proof.KernelValue.lean ====
/-
  The kernel program, read as one composition. Its host stretches and its three kernel regions are walked from the last
  boundary back to the launch memory: a region leaves its output array at the whole-array function of what it found
  (`dense`, `hidden`, `addBias`) and every other buffer untouched; a host stretch leaves each buffer it writes at
  its operations' term and every other buffer untouched. The edge-only buffers (source and destination node of every
  edge with the self loops appended, and the edge normalisation) are computed once, before the first region, and read
  three times; they are identified, as whole terms and without being opened, with the reference's stages of the edge
  array (Proof/KernelEdges); the arguments reach the first region as launched (Proof/KernelArgs). What comes out is

      addBias (aggregateOut e (hidden (aggregateHidden e (dense x w1)) (b1 as a row) w2)) (b2 as a 1 × 1 array)

  over the launch contents of the six argument arrays.
-/
import proofs.«133545_j89292370084484_1_alg».proof.Proof.Gen.KernelIdeal.Frame
import proofs.«133545_j89292370084484_1_alg».proof.Proof.DenseValue
import proofs.«133545_j89292370084484_1_alg».proof.Proof.HiddenValue
import proofs.«133545_j89292370084484_1_alg».proof.Proof.BiasAddValue
import proofs.«133545_j89292370084484_1_alg».proof.Proof.RefValue
import proofs.«133545_j89292370084484_1_alg».proof.Proof.KernelEdges
import proofs.«133545_j89292370084484_1_alg».proof.Proof.KernelArgs

set_option maxRecDepth 16384
-- one theorem at a time: each walks a stretch of host operations over full-size arrays
set_option Elab.async false
-- a stretch of sixteen or seventeen host operations is composed one rewrite per operation and buffer
set_option maxHeartbeats 4000000

noncomputable section

namespace Cert.Gcn.Kernel

open Cert.KernelIdeal Cert.KernelIdeal.Gen
open Idealize.ShloMosaic Idealize.ShloMosaic.TcCoe Idealize.SL.Sem Idealize.ShloMosaic.StableHlo
open Cert.Gcn.Reference (aggregateHidden aggregateOut)
open Cert.ReferenceIdeal.ReadP (val_main_v4 val_main_v7 val_main_v30)

variable (m : (ℓ : Loc nD τ sig) → Buf (Elt Ideal) ℓ) (ρ : Dev nD → PrngReg)

/-! ## After the first region -/

theorem src_W4 (c : Dev nD) : W4 m ρ c (Proc.devRef .tc main_v3) = val_main_v4 (F := Ideal) (edges m c) :=
  (W4_of_ne m ρ c main_v3 (by decide)).trans (src_W3 m ρ c)
theorem dst_W4 (c : Dev nD) : W4 m ρ c (Proc.devRef .tc main_v6) = val_main_v7 (F := Ideal) (edges m c) :=
  (W4_of_ne m ρ c main_v6 (by decide)).trans (dst_W3 m ρ c)
theorem norm_W4 (c : Dev nD) : W4 m ρ c (Proc.devRef .tc main_v29) = val_main_v30 (F := Ideal) (edges m c) :=
  (W4_of_ne m ρ c main_v29 (by decide)).trans (norm_W3 m ρ c)
theorem biasIn_W4 (c : Dev nD) : W4 m ρ c (Proc.devRef .tc main_arg3) = biasIn m c :=
  (W4_of_ne m ρ c main_arg3 (by decide)).trans (biasIn_W3 m ρ c)
theorem weightOut_W4 (c : Dev nD) : W4 m ρ c (Proc.devRef .tc main_arg4) = weightOut m c :=
  (W4_of_ne m ρ c main_arg4 (by decide)).trans (weightOut_W3 m ρ c)
theorem biasOut_W4 (c : Dev nD) : W4 m ρ c (Proc.devRef .tc main_arg5) = biasOut m c :=
  (W4_of_ne m ρ c main_arg5 (by decide)).trans (biasOut_W3 m ρ c)

/-- The first region leaves the first dense transform of the features. -/
theorem dense_W4 (c : Dev nD) : W4 m ρ c (Proc.devRef .tc main_v30) = dense (feat m c) (weightIn m c) := by
  refine (W4_arr m ρ c 2).trans ?_
  refine (Dense.final (V3 m ρ) c).trans ?_
  show dense (W3 m ρ c (Proc.devRef .tc main_arg0)) (W3 m ρ c (Proc.devRef .tc main_arg2)) = _
  rw [feat_W3, weightIn_W3]

/-! ## Before the second region -/

/-- The first message-passing stage of the dense transform. -/
theorem agg_W5 (c : Dev nD) : W5 m ρ c (Proc.devRef .tc main_v43) = aggregateHidden (edges m c) (dense (feat m c) (weightIn m c)) := by
  show StableHlo.after hostOps1 (W4 m ρ c) (Proc.devRef .tc main_v43) = _
  after_results
  rw [src_W4, dst_W4, norm_W4, dense_W4]
  rfl
/-- The first bias as a row. -/
theorem biasRow_W5 (c : Dev nD) : W5 m ρ c (Proc.devRef .tc main_v44) = shapeCast S1x32 (biasIn m c) shapeCasts_S32_S1x32 := by
  show StableHlo.after hostOps1 (W4 m ρ c) (Proc.devRef .tc main_v44) = _
  after_results
  rw [biasIn_W4] <;> rfl
theorem src_W5 (c : Dev nD) : W5 m ρ c (Proc.devRef .tc main_v3) = val_main_v4 (F := Ideal) (edges m c) := by
  show StableHlo.after hostOps1 (W4 m ρ c) (Proc.devRef .tc main_v3) = _
  after_results
  exact src_W4 m ρ c
theorem dst_W5 (c : Dev nD) : W5 m ρ c (Proc.devRef .tc main_v6) = val_main_v7 (F := Ideal) (edges m c) := by
  show StableHlo.after hostOps1 (W4 m ρ c) (Proc.devRef .tc main_v6) = _
  after_results
  exact dst_W4 m ρ c
theorem norm_W5 (c : Dev nD) : W5 m ρ c (Proc.devRef .tc main_v29) = val_main_v30 (F := Ideal) (edges m c) := by
  show StableHlo.after hostOps1 (W4 m ρ c) (Proc.devRef .tc main_v29) = _
  after_results
  exact norm_W4 m ρ c
theorem weightOut_W5 (c : Dev nD) : W5 m ρ c (Proc.devRef .tc main_arg4) = weightOut m c := by
  show StableHlo.after hostOps1 (W4 m ρ c) (Proc.devRef .tc main_arg4) = _
  after_results
  exact weightOut_W4 m ρ c
theorem biasOut_W5 (c : Dev nD) : W5 m ρ c (Proc.devRef .tc main_arg5) = biasOut m c := by
  show StableHlo.after hostOps1 (W4 m ρ c) (Proc.devRef .tc main_arg5) = _
  after_results
  exact biasOut_W4 m ρ c

/-! ## After the second region -/

theorem src_W6 (c : Dev nD) : W6 m ρ c (Proc.devRef .tc main_v3) = val_main_v4 (F := Ideal) (edges m c) :=
  (W6_of_ne m ρ c main_v3 (by decide)).trans (src_W5 m ρ c)
theorem dst_W6 (c : Dev nD) : W6 m ρ c (Proc.devRef .tc main_v6) = val_main_v7 (F := Ideal) (edges m c) :=
  (W6_of_ne m ρ c main_v6 (by decide)).trans (dst_W5 m ρ c)
theorem norm_W6 (c : Dev nD) : W6 m ρ c (Proc.devRef .tc main_v29) = val_main_v30 (F := Ideal) (edges m c) :=
  (W6_of_ne m ρ c main_v29 (by decide)).trans (norm_W5 m ρ c)
theorem biasOut_W6 (c : Dev nD) : W6 m ρ c (Proc.devRef .tc main_arg5) = biasOut m c :=
  (W6_of_ne m ρ c main_arg5 (by decide)).trans (biasOut_W5 m ρ c)

/-- The second region leaves bias, rectifier and second dense transform of the aggregated features. -/
theorem hidden_W6 (c : Dev nD) : W6 m ρ c (Proc.devRef .tc main_v45)
    = hidden (aggregateHidden (edges m c) (dense (feat m c) (weightIn m c))) (shapeCast S1x32 (biasIn m c) shapeCasts_S32_S1x32) (weightOut m c) := by
  refine (W6_arr m ρ c 3).trans ?_
  refine (Hidden.final (V5 m ρ) c).trans ?_
  show hidden (W5 m ρ c (Proc.devRef .tc main_v43)) (W5 m ρ c (Proc.devRef .tc main_v44)) (W5 m ρ c (Proc.devRef .tc main_arg4)) = _
  rw [agg_W5, biasRow_W5, weightOut_W5]

/-! ## Before the third region -/

/-- The second message-passing stage. -/
theorem agg_W7 (c : Dev nD) : W7 m ρ c (Proc.devRef .tc main_v57)
    = aggregateOut (edges m c) (hidden (aggregateHidden (edges m c) (dense (feat m c) (weightIn m c))) (shapeCast S1x32 (biasIn m c) shapeCasts_S32_S1x32) (weightOut m c)) := by
  show StableHlo.after hostOps2 (W6 m ρ c) (Proc.devRef .tc main_v57) = _
  after_results
  rw [src_W6, dst_W6, norm_W6, hidden_W6]
  rfl
/-- The second bias as a 1 × 1 array. -/
theorem biasCell_W7 (c : Dev nD) : W7 m ρ c (Proc.devRef .tc main_v58) = shapeCast S1x1 (biasOut m c) shapeCasts_S1_S1x1 := by
  show StableHlo.after hostOps2 (W6 m ρ c) (Proc.devRef .tc main_v58) = _
  after_results
  rw [biasOut_W6] <;> rfl

/-! ## After the third region: the result -/

/-- THE KERNEL PROGRAM'S RESULT as one composition of the five stages, over the launch contents of its arguments. -/
theorem result_W8 (c : Dev nD) : W8 m ρ c (Proc.devRef .tc main_v59)
    = addBias (aggregateOut (edges m c) (hidden (aggregateHidden (edges m c) (dense (feat m c) (weightIn m c)))
        (shapeCast S1x32 (biasIn m c) shapeCasts_S32_S1x32) (weightOut m c))) (shapeCast S1x1 (biasOut m c) shapeCasts_S1_S1x1) := by
  refine (W8_arr m ρ c 2).trans ?_
  refine (BiasAdd.final (V7 m ρ) c).trans ?_
  show addBias (W7 m ρ c (Proc.devRef .tc main_v57)) (W7 m ρ c (Proc.devRef .tc main_v58)) = _
  rw [agg_W7, biasCell_W7]

end Cert.Gcn.Kernel

end
-- ==== Proof.LibRowReshape.lean ====
/-
  A vector of n entries reshaped to a 1 × n matrix is the host's broadcast of it along axis 1 into that shape: both read
  entry (0, t) from entry t. (The two ways a program turns a bias vector into a one-row matrix.)
-/
import Idealize.ShloMosaic.Lib.Pipeline.Value
import Idealize.ShloMosaic.Lib.ValueIdx

namespace Idealize.ShloMosaic

open Idealize.ShloMosaic.ValueIdx

/-- A vector of `n` entries as one row: the reshape `[n] → [1, n]` is the broadcast in dimensions `[1]`. -/
theorem shapeCast_row_eq_broadcastInDim {n : Nat} {α : Type} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by
    have h : (i 0).val < 1 := (i 0).isLt
    omega
  have e2 := shapeCast_apply x h1 i (ix1 (i 1 : Fin n)) (by
    rw [Shape.rowMajor_val_two, Shape.rowMajor_val_one]
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt
        omega
      · rfl)
  exact e2.trans e3.symm

end Idealize.ShloMosaic
-- ==== Proof.lean ====
/-
  Two-layer graph convolution with self loops and symmetric degree normalisation, 100000 nodes and 2560000 edges: the
  kernel program against the reference, equal over the extended reals.

  Both programs compute, from the node features x, the edge list e, and the weights and biases (w1, b1), (w2, b2),

      addBias (aggregateOut e (hidden (aggregateHidden e (dense x w1)) b1 w2)) b2 .

  The two message-passing stages (gather at the source nodes, scale by the edge normalisation, scatter-add at the
  destination nodes) are the same host operations in both programs and are compared as whole terms, never opened. The
  three per-node stages are where the programs differ in form: the kernel program runs each as a pipelined kernel over
  ten row blocks, with bf16 operands into a zero accumulator; the reference runs each as one whole-array operation. On the
  extended reals a narrowing is the identity and both matrix products are the plain sum over the contracted axis, so
  each kernel region leaves exactly the reference's stage (Proof/DenseValue, HiddenValue, BiasAddValue against
  Proof/RefValue). The kernel program makes each bias a row by a reshape, the reference by a broadcast along axis 1: one
  function (Proof/LibRowReshape). No law used needs the inputs finite, so the precondition is never opened.

  Frames: the kernel programs' are the generated ones; the reference's is its run with the result dropped. The ideal
  pass rewrote nothing, so `preserves` is trivial.
-/
import proofs.«133545_j89292370084484_1_alg».proof.Defs
import proofs.«133545_j89292370084484_1_alg».proof.Proof.Gen.Kernel
import proofs.«133545_j89292370084484_1_alg».proof.Proof.Gen.Kernel.Frame
import proofs.«133545_j89292370084484_1_alg».proof.Proof.Gen.KernelIdeal
import proofs.«133545_j89292370084484_1_alg».proof.Proof.Gen.KernelIdeal.Frame
import proofs.«133545_j89292370084484_1_alg».proof.Proof.Gen.ReferenceIdeal
import proofs.«133545_j89292370084484_1_alg».proof.Proof.Gen.Pre_finite_inputs
import proofs.«133545_j89292370084484_1_alg».proof.Proof.KernelRun
import proofs.«133545_j89292370084484_1_alg».proof.Proof.KernelValue
import proofs.«133545_j89292370084484_1_alg».proof.Proof.RefValue
import proofs.«133545_j89292370084484_1_alg».proof.Proof.LibRowReshape
import Idealize.ShloMosaic.Adequacy
import Idealize.ShloMosaic.Init

noncomputable section

namespace Cert.Proof

open Idealize.ShloMosaic Idealize.ShloMosaic.TcCoe Idealize.SL.Sem
open Cert.Gcn Cert.Gcn.Reference

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The first bias as a row: the kernel program's reshape is the reference's broadcast along axis 1. -/
theorem biasRow_eq (b : (⟨Cert.KernelIdeal.S32, .f32⟩ : BufTy).Contents (Elt Ideal)) :
    shapeCast Cert.KernelIdeal.S1x32 b Cert.KernelIdeal.Gen.shapeCasts_S32_S1x32 = Cert.ReferenceIdeal.ReadP.val_main_v44 (F := Ideal) b := by
  unfold Cert.ReferenceIdeal.ReadP.val_main_v44
  exact shapeCast_row_eq_broadcastInDim b _ _

/-- The second bias as a 1 × 1 array, likewise. -/
theorem biasCell_eq (b : (⟨Cert.KernelIdeal.S1, .f32⟩ : BufTy).Contents (Elt Ideal)) :
    shapeCast Cert.KernelIdeal.S1x1 b Cert.KernelIdeal.Gen.shapeCasts_S1_S1x1 = Cert.ReferenceIdeal.ReadP.val_main_v91 (F := Ideal) b := by
  unfold Cert.ReferenceIdeal.ReadP.val_main_v91
  exact shapeCast_row_eq_broadcastInDim b _ _

/-- From memories agreeing on the arguments both programs end with the one composition of the five stages. -/
theorem algebraic : Cert.algebraic_KernelIdeal_ReferenceIdeal := by
  intro m ρ m' ρ' _ hagree
  refine ⟨_, (θ_run Cert.KernelIdeal.defs _ _).mono
      (fun r h c => ⟨(h c).1.trans (Cert.Gcn.Kernel.result_W8 m ρ c), (h c).2⟩)
      (Cert.KernelIdeal.ResultRun.run (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v93_eq, (hagree c).1, (hagree c).2.1, (hagree c).2.2.1, (hagree c).2.2.2.1,
    (hagree c).2.2.2.2.1, (hagree c).2.2.2.2.2, Cert.Gcn.Reference.result_eq, ← biasRow_eq, ← biasCell_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
